-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .i32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x1, .f32⟩
  | .local _ .vmem, ⟨5, _⟩ => ⟨S256x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .i32 = 32 ∨ (Rect.block (s := S8192x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .i32⟩
  | .hbm, ⟨2, _⟩ => ⟨S8192x4096, .f32⟩
  | .hbm, ⟨3, _⟩ => ⟨S_, .i32⟩
  | .hbm, ⟨4, _⟩ => ⟨S8192x4096, .i32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.RowLoss.lean ====
/-
  The hard-negative contrastive loss, as a function of the two argument arrays.

  For one row of scores `x` and labels `lab` (a label counts as positive when it is `> 0` as a signed word):
    e k      = exp (x k)
    hardest  = the largest `e k` over the non-positive labels (positives replaced by −∞; −∞ when every label is positive)
    posSum   = the sum of `e k` over the positive labels (the others contribute the literal zero)
    total    = the sum of every `e k`
    rowLoss  = − log ((posSum + hardest) / total + 0.05)
  and the result is the mean of `rowLoss` over the 8192 rows: the literal zero plus their sum, divided by 8192.
  The float literals stay as their words: both programs carry the same ones, so none is ever evaluated.
-/
import Idealize.ShloMosaic.PureOps.Ideal.Laws
import Idealize.ShloMosaic.Lib.ValueIdx
import Idealize.ShloMosaic.Lib.ValueIdxRank1

noncomputable section

open scoped BigOperators

namespace Cert.SecLoss

open Idealize.ShloMosaic Idealize.ShloMosaic.ValueIdx

/-- The positive-label test of one entry. -/
abbrev isPos (l : BitVec 32) : BitVec 1 := IntOp.cmpi .sgt l 0#32

/-- One row's loss: `− log ((posSum + hardest) / total + 0.05)`. -/
def rowLoss {D : Nat} (x : Fin D → EReal) (lab : Fin D → BitVec 32) : EReal :=
  -(Ideal.log (Ideal.div
      ((∑ k : Fin D, Scalar.select (isPos (lab k)) (Ideal.exp (x k)) (Ideal.ofBits .f32 0x00000000#32))
        + (Finset.univ : Finset (Fin D)).fold max (Ideal.ofBits .f32 0xFF800000#32)
            (fun k => Scalar.select (isPos (lab k)) (Ideal.ofBits .f32 0xFF800000#32) (Ideal.exp (x k))))
      (∑ k : Fin D, Ideal.exp (x k))
    + Ideal.ofBits .f32 0x3D4CCCCD#32))

/-- Row `r` of a rank-2 array. -/
abbrev rowOf {α : Type} {R D : Nat} (a : (⟨2, ![R, D]⟩ : Shape).Idx → α) (r : Fin R) : Fin D → α := fun k => a (ix2 r k)

/-- The mean of the rows' losses: the zero literal plus their sum, divided by the literal 8192. -/
def meanLoss {R D : Nat} (x : (⟨2, ![R, D]⟩ : Shape).Idx → EReal) (lab : (⟨2, ![R, D]⟩ : Shape).Idx → BitVec 32) : EReal :=
  Ideal.div (Ideal.ofBits .f32 0x00000000#32 + ∑ r : Fin R, rowLoss (rowOf x r) (rowOf lab r)) (Ideal.ofBits .f32 0x46000000#32)

/-- A sum over a one-column array `[R, 1]` is the sum over its rows. -/
theorem sum_column {R : Nat} (f : (⟨2, ![R, 1]⟩ : Shape).Idx → EReal) : ∑ i, f i = ∑ r : Fin R, f (ix2 r (0 : Fin 1)) := by
  rw [sum_idx2]
  exact Finset.sum_congr rfl fun r _ => Fin.sum_univ_one _

/-- A sum over a rank-1 array `[R]` is the sum over its coordinate. -/
theorem sum_vector {R : Nat} (f : (⟨1, ![R]⟩ : Shape).Idx → EReal) : ∑ i, f i = ∑ r : Fin R, f (ix1 r) :=
  (Equiv.sum_comp (idxEquiv1 (n := R)).symm f).symm

end Cert.SecLoss

end
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.BlockLoss.lean ====
/-
  What the kernel body stores for one block of 256 rows: entry (p, ·) of its one-column result is the loss of the
  block's row p. The two lane sums and the lane maximum are read row by row, the keepdims casts carry nothing, and
  `0 − log …` is `− log …` on the extended reals.
-/
import proofs.«103416_j87574383165526_1_alg».proof.Proof.Gen.KernelIdeal.Skeleton
import proofs.«103416_j87574383165526_1_alg».proof.Proof.RowLoss
import proofs.«103416_j87574383165526_1_alg».proof.Proof.LibRowReduce
import proofs.«103416_j87574383165526_1_alg».proof.Proof.LibKeepdims

noncomputable section

open scoped BigOperators

namespace Cert.SecLoss

open Idealize.ShloMosaic Idealize.ShloMosaic.ValueIdx Idealize.ShloMosaic.RowReduce Cert.KernelIdeal Cert.KernelIdeal.Gen

/-- The vector logarithm at an index. -/
theorem log_apply {s : Shape} (a : FVec Ideal s .f32) (i : s.Idx) : log a i = Ideal.log (a i) := rfl

/-- A lane sum of a block from the zero word, at row `p`: the sum of the row's entries. -/
theorem laneSum_row (x : FVec Ideal S256x4096 .f32) (hφ : FKind.Formats .f32)
    (hacc : (0x00000000#32 : BitVec 32) = 0x00000000#32) (p : Fin 256) :
    multiReduction .add [1] S256 x 0x00000000#32 reduces_S256x4096_S256 hφ hacc (ix1 p) = ∑ k : Fin 4096, x (ix2 p k) :=
  multiReduction_add_row x 0x00000000#32 reduces_S256x4096_S256 hφ hacc p

/-- A lane maximum of a block from −∞, at row `p`: the fold of `max` from −∞ over the row's entries. -/
theorem laneMax_row (x : FVec Ideal S256x4096 .f32) (hφ : FKind.Formats .f32)
    (hacc : (0xFF800000#32 : BitVec 32) = 0xFF800000#32) (p : Fin 256) :
    multiReduction .maximumf [1] S256 x 0xFF800000#32 reduces_S256x4096_S256 hφ hacc (ix1 p)
      = (Finset.univ : Finset (Fin 4096)).fold max (Ideal.ofBits .f32 0xFF800000#32) (fun k => x (ix2 p k)) :=
  multiReduction_maximumf_row x 0xFF800000#32 reduces_S256x4096_S256 hφ hacc p

/-- Subtracting from the zero word is negation. -/
theorem zeroWord_sub (y : Ideal .f32) : (FloatOps.ofBits .f32 0x00000000#32 : Ideal .f32) - y = -y := by
  rw [Ideal.ofBits_def, Ideal.ofBits_zero_f32, zero_sub]

/-- The body's stored value at row `p` of the block is that row's loss. -/
theorem payload_apply (x0 : Vec Ideal S256x4096 .f32) (x1 : Vec Ideal S256x4096 .i32) (p : Fin 256) (u : Fin 1) :
    k0_pay1 (F := Ideal) x0 x1 (ix2 p u) = rowLoss (rowOf x0 p) (rowOf x1 p) := by
  unfold k0_pay1
  dsimp only
  rw [subf_apply, broadcast_apply, log_apply, addf_apply, divf_apply, addf_apply, broadcast_apply,
    Cert.Keepdims.shapeCast_a_a1_apply, Cert.Keepdims.shapeCast_a_a1_apply, Cert.Keepdims.shapeCast_a_a1_apply,
    laneSum_row, laneMax_row, laneSum_row, zeroWord_sub]
  rfl

end Cert.SecLoss

end
-- ==== Proof.KernelArray.lean ====
/-
  The kernel's one-column output array after the run. Grid point `t` stages rows `256·t … 256·t + 255` of both
  arguments and writes back rows `256·t … 256·t + 255` of the column; what it writes at row `p` of its block is the loss
  of row `256·t + p` of the arguments. The 32 blocks tile the 8192 rows, so the array ends as the column of row losses.
-/
import proofs.«103416_j87574383165526_1_alg».proof.Proof.Gen.KernelIdeal.Frame
import proofs.«103416_j87574383165526_1_alg».proof.Proof.BlockLoss
import Idealize.ShloMosaic.Lib.Pipeline.Value

set_option maxRecDepth 16384

noncomputable section

open scoped BigOperators

namespace Cert.SecLoss

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The column of row losses: entry `(r, ·)` is the loss of row `r`. -/
def lossColumn (x : S8192x4096.Idx → EReal) (lab : S8192x4096.Idx → BitVec 32) : S8192x1.Idx → EReal :=
  fun i => rowLoss (rowOf x (i 0)) (rowOf lab (i 0))

theorem zeroOffsets : (![0, 0] : Fin 2 → Nat) = fun _ => 0 := funext fun a => by fin_cases a <;> rfl

/-- The three windows move together: at point `t` each is at block row `t`, block column `0`. -/
theorem blockIndices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem blockRow_onto : ∀ q : Fin 32, ∃ t : Fin cfg0.N, win0_2.index t = ![q.val, 0] :=
  (by decide +kernel : ∀ q : Fin 32, ∃ t : Fin grid0.N, win0_2.index t = ![q.val, 0])

/-- Row `p`, column `k` of the scores block at point `t` is row `256·t + p`, column `k` of the scores. -/
theorem scoresBlock_apply (c : Dev nD) (t : Fin cfg0.N) (p : Fin 256) (k : Fin 4096) (r : Fin 8192) (hr : r.val = t.val * 256 + p.val) :
    iblk m c 0 t (ix2 p k) = V m c main_arg0 (ix2 r k) := by
  obtain ⟨e0, e1, e2, e3, e4, e5⟩ := blockIndices t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 4096 + 1 * k.val = k.val; omega

/-- The same for the labels block. -/
theorem labelsBlock_apply (c : Dev nD) (t : Fin cfg0.N) (p : Fin 256) (k : Fin 4096) (r : Fin 8192) (hr : r.val = t.val * 256 + p.val) :
    iblk m c 1 t (ix2 p k) = V m c main_arg1 (ix2 r k) := by
  obtain ⟨e0, e1, e2, e3, e4, e5⟩ := blockIndices t
  show V m c main_arg1 (((cfg0.win 1).blk t).view.emb (ix2 p k)) = V m c main_arg1 (ix2 r k)
  refine congrArg _ (funext fun a => Fin.ext ?_)
  match a with
  | ⟨0, _⟩ => show win0_1.index t (0 : Fin 2) * 256 + 1 * p.val = r.val; omega
  | ⟨1, _⟩ => show win0_1.index t (1 : Fin 2) * 4096 + 1 * k.val = k.val; omega

/-- What point `t` writes back is block `t` of the column of row losses. -/
theorem flushed_eq (c : Dev nD) (t : Fin cfg0.N) :
    (dats m 0 c).flushed 2 t
      = ((cfg0.win 2).blk t).view.read (Elt Ideal) (lossColumn (V m c main_arg0) (V m c main_arg1)) := by
  show (cfg0.win 2).cut (grid0.coords t) ((dats m 0 c).after 2 t) = _
  rw [after0_2]
  unfold out0_2
  rw [View.canon_unit_zero zeroOffsets]
  simp only [View.ld_unit_zero (S := S256x4096) zeroOffsets]
  obtain ⟨e0, e1, e2, e3, e4, e5⟩ := blockIndices t
  funext j
  obtain ⟨p, u, rfl⟩ : ∃ (p : Fin 256) (u : Fin 1), j = ix2 p u := ⟨j 0, j 1, eq_ix2 j⟩
  show k0_pay1 (F := Ideal) (iblk m c 0 t) (iblk m c 1 t) (ix2 p u)
      = lossColumn (V m c main_arg0) (V m c main_arg1) (((cfg0.win 2).blk t).view.emb (ix2 p u))
  refine (payload_apply (iblk m c 0 t) (iblk m c 1 t) p u).trans ?_
  have hr : ((((cfg0.win 2).blk t).view.emb (ix2 p u)) 0).val = t.val * 256 + p.val := by
    show win0_2.index t (0 : Fin 2) * 256 + 1 * p.val = t.val * 256 + p.val
    omega
  have h0 : rowOf (iblk m c 0 t) p = rowOf (V m c main_arg0) ((((cfg0.win 2).blk t).view.emb (ix2 p u)) 0) :=
    funext fun k => scoresBlock_apply m c t p k _ hr
  have h1 : rowOf (iblk m c 1 t) p = rowOf (V m c main_arg1) ((((cfg0.win 2).blk t).view.emb (ix2 p u)) 0) :=
    funext fun k => labelsBlock_apply m c t p k _ hr
  exact congrArg₂ (rowLoss (D := 4096)) h0 h1

/-- An index of the column is in point `t`'s block iff each coordinate is in the block's range on its axis. -/
theorem mem_block (t : Fin cfg0.N) (i : S8192x1.Idx) :
    i ∈ ((cfg0.win 2).blk t).view.set ↔ ∀ a : Fin 2, win0_2.index t a * S256x1.size a ≤ (i a).val
      ∧ (i a).val < win0_2.index t a * S256x1.size a + S256x1.size a := by
  show i ∈ ((View.whole main_v0).slice (win0_2.rect t)).set ↔ _
  rw [View.set_slice_whole, Rect.mem_set_unit]
  exact Iff.rfl

/-- Every row of the column is in the block of the point `row / 256`. -/
theorem covered (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := blockRow_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1 ≤ (i 1).val ∧ (i 1).val < win0_2.index t (1 : Fin 2) * 1 + 1; omega

/-- The output array after the run is the column of the argument arrays' row losses. -/
theorem column_final (c : Dev nD) :
    (dats m 0 c).arrAt 2 cfg0.N
      = lossColumn (m ((c : Thread nD τ).loc main_arg0)) (m ((c : Thread nD τ).loc main_arg1)) :=
  (dats m 0 c).arrAt_eq_of_cover 2 (lossColumn (V m c main_arg0) (V m c main_arg1)) (fun t _ => flushed_eq m c t) covered

end Cert.SecLoss

end
-- ==== Proof.KernelRun.lean ====
/-
  The kernel program's run, read: after the kernel region the host sums the column of row losses from the zero literal and
  divides by the literal 8192, so the result buffer ends at the mean loss of the argument arrays.
-/
import proofs.«103416_j87574383165526_1_alg».proof.Proof.KernelArray
import Idealize.ShloMosaic.Lib.StableHlo.Run

set_option maxRecDepth 16384

noncomputable section

open scoped BigOperators

namespace Cert.SecLoss

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The result buffer after the host operations that follow the kernel region. -/
theorem tail_result (c : Dev nD) :
    Pipeline.afterTail₀ cfgs (dats m) 0 (V0 m) [hostOps1] c main_v2
      = fun _ => meanLoss (m ((c : Thread nD τ).loc main_arg0)) (m ((c : Thread nD τ).loc main_arg1)) := by
  unfold Pipeline.afterTail₀
  show StableHlo.after hostOps1 _ (Proc.devRef .tc main_v2) = _
  after_results
  have hcol : Pipeline.withArrays (cfgs 0).spec c (V0 m c) (fun w => (dats m 0 c).arrAt w (cfgs 0).N) (Proc.devRef .tc main_v0)
      = lossColumn (m ((c : Thread nD τ).loc main_arg0)) (m ((c : Thread nD τ).loc main_arg1)) :=
    (Pipeline.withArrays_arr spec0 launch0.win.arr_inj c _ _ 2).trans (column_final m c)
  rw [hcol]
  funext i
  show Ideal.div (Host.reduceAdd (F := Ideal) (lossColumn (m ((c : Thread nD τ).loc main_arg0)) (m ((c : Thread nD τ).loc main_arg1)))
      (constant (F := Ideal) S_ .f32 0x00000000#32) reducesTo_S8192x1_S_d0_1 h_S_ i) (Ideal.ofBits .f32 0x46000000#32) = _
  simp only [Host.reduceAdd, Ideal.hostReduceAdd_def]
  rw [Ideal.hostReduceAdd_total reducesTo_S8192x1_S_d0_1 (fun b => b.elim0), sum_column]
  rfl

/-- The result buffer bypasses the region: it is unscoped and no window's array. -/
theorem result_bypasses : main_v2 ∈ Pipeline.restRefs sig spec0 :=
  Pipeline.mem_restRefs_of main_v2 rfl (by decide)

/-- Every weakly fair execution of the kernel program ends with the result buffer at the mean loss of the argument
    arrays, and the argument arrays as they were. -/
theorem kernel_run : θ_run defs (onTc (τ := τ) (main (F := Ideal))) ⟨m, fun _ => 0, ρ⟩ fun r => ∀ c : Dev nD,
      r.2.mem ((c.tc : Thread nD τ).loc main_v2)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 result_bypasses).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.SecLoss

end
-- ==== Proof.ReferenceLoss.lean ====
/-
  The reference computes the same mean loss. Read one operation at a time: the row sums are the initial zero plus
  the sum over the row (the zero vanishes), the row maximum is the fold of `max` from −∞ over the row, the quotient,
  the shift by 0.05, the logarithm and the negation are pointwise, and the final sum runs over the 8192 rows.
-/
import proofs.«103416_j87574383165526_1_alg».proof.Proof.Gen.ReferenceIdeal.Read
import proofs.«103416_j87574383165526_1_alg».proof.Proof.RowLoss
import proofs.«103416_j87574383165526_1_alg».proof.Proof.LibRowReduce

noncomputable section

open scoped BigOperators

namespace Cert.SecLoss.Reference

open Idealize.ShloMosaic Idealize.ShloMosaic.ValueIdx Idealize.ShloMosaic.RowReduce Cert.SecLoss
open Cert.ReferenceIdeal Cert.ReferenceIdeal.Gen Cert.ReferenceIdeal.Read

variable (x : S8192x4096.Idx → EReal) (lab : S8192x4096.Idx → BitVec 32)

/-- Adding to the zero word changes nothing. -/
theorem zeroWord_add (y : Ideal .f32) : (FloatOps.ofBits .f32 0x00000000#32 : Ideal .f32) + y = y := by
  rw [Ideal.ofBits_def, Ideal.ofBits_zero_f32, zero_add]

/-- The two reductions over the columns name entry `k` of row `r` as `(r, k)`. -/
theorem posSum_index (r : Fin 8192) (k : Fin 4096) : idx_main_v6 (ix1 r) k = ix2 r k :=
  funext fun a => Fin.ext (by match a with | ⟨0, _⟩ => rfl | ⟨1, _⟩ => rfl)
theorem total_index (r : Fin 8192) (k : Fin 4096) : idx_main_v8 (ix1 r) k = ix2 r k :=
  funext fun a => Fin.ext (by match a with | ⟨0, _⟩ => rfl | ⟨1, _⟩ => rfl)

/-- The exponentials. -/
theorem exp_apply (i : S8192x4096.Idx) : val_main_v0 (F := Ideal) x i = Ideal.exp (x i) := rfl

/-- An entry of the positives' summand: the exponential under a positive label, the zero word otherwise. -/
theorem posTerm_apply (i : S8192x4096.Idx) :
    val_main_v5 (F := Ideal) x lab i
      = Scalar.select (isPos (lab i)) (Ideal.exp (x i)) (Ideal.ofBits .f32 0x00000000#32) := by
  rw [val_main_v5_apply, val_main_v2_apply, val_main_v1_apply, val_main_c_apply, val_main_v0_apply,
    val_main_call1_v1_apply, val_main_call1_v0_apply, val_main_cst_1_apply]
  rfl

/-- An entry of the hardest-negative candidates: −∞ under a positive label, the exponential otherwise. -/
theorem negTerm_apply (i : S8192x4096.Idx) :
    val_main_v3 (F := Ideal) x lab i
      = Scalar.select (isPos (lab i)) (Ideal.ofBits .f32 0xFF800000#32) (Ideal.exp (x i)) := by
  rw [val_main_v3_apply, val_main_v2_apply, val_main_v1_apply, val_main_c_apply, val_main_v0_apply,
    val_main_call0_v1_apply, val_main_call0_v0_apply, val_main_cst_apply]
  rfl

/-- The reference's negated logarithm at row `r` is that row's loss. -/
theorem negLog_apply (r : Fin 8192) :
    val_main_v13 (F := Ideal) x lab (ix1 r) = rowLoss (rowOf x r) (rowOf lab r) := by
  rw [val_main_v13_apply, val_main_v12_apply, val_main_v11_apply, val_main_v9_apply, val_main_v7_apply,
    val_main_v6_apply, val_main_v8_apply, val_main_v10_apply,
    val_main_cst_2_apply, val_main_cst_3_apply, val_main_cst_4_apply, zeroWord_add, zeroWord_add]
  unfold val_main_v4
  rw [hostReduce_maximumf_row (val_main_v3 (F := Ideal) x lab) (val_main_cst_0 (F := Ideal))
    reducesTo_S8192x4096_S8192_d1 (by decide) h_S_ r, val_main_cst_0_apply]
  simp only [posSum_index, total_index, posTerm_apply, negTerm_apply, exp_apply]
  rfl

/-- The reference's result is the mean loss of its arguments. -/
theorem result_eq : val_main_v15 (F := Ideal) x lab = fun _ => meanLoss x lab := by
  funext i
  rw [val_main_v15_apply, val_main_v14_apply, val_main_cst_5_apply, val_main_cst_6_apply, sum_vector]
  simp only [negLog_apply]
  rfl

end Cert.SecLoss.Reference

end
-- ==== Proof.lean ====
/-
  The hard-negative contrastive loss: a kernel over 32 blocks of 256 rows, followed by a host mean, against the
  reference that works on the whole arrays.

  Both programs compute, for scores `x` and labels `lab` of shape [8192, 4096],
      mean over rows r of  − log ((posSum r + hardest r) / total r + 0.05)
  where, with `e = exp x`: `posSum r` sums `e` over the entries of row `r` whose label is positive, `hardest r` is the
  largest `e` over the other entries of the row (−∞ if there is none) and `total r` sums the whole row. On the extended
  reals the two programs are the same expression (`Cert.SecLoss.meanLoss`, Proof/RowLoss.lean): the literals are the
  same words on both sides, the kernel's `0 − log` is the reference's negation, its keepdims columns carry the
  reference's row vectors, and the 32 blocks of 256 rows tile the 8192 rows. No algebraic law beyond `0 + y = y` and
  `0 − y = −y` is used, so the finiteness of the inputs is never opened.

  Proof/BlockLoss.lean reads the kernel body's stored value at a row of a block; Proof/KernelArray.lean the output
  column after the run; Proof/KernelRun.lean the host mean after the call and the kernel program's run;
  Proof/ReferenceLoss.lean the reference's operations, one at a time. The frames of the two kernel programs and the
  reference's run are the generated ones.
-/
import proofs.«103416_j87574383165526_1_alg».proof.Defs
import proofs.«103416_j87574383165526_1_alg».proof.Proof.Gen.Kernel
import proofs.«103416_j87574383165526_1_alg».proof.Proof.Gen.Kernel.Skeleton
import proofs.«103416_j87574383165526_1_alg».proof.Proof.Gen.Kernel.Launch
import proofs.«103416_j87574383165526_1_alg».proof.Proof.Gen.Kernel.Points
import proofs.«103416_j87574383165526_1_alg».proof.Proof.Gen.Kernel.Frame
import proofs.«103416_j87574383165526_1_alg».proof.Proof.Gen.KernelIdeal
import proofs.«103416_j87574383165526_1_alg».proof.Proof.Gen.KernelIdeal.Skeleton
import proofs.«103416_j87574383165526_1_alg».proof.Proof.Gen.KernelIdeal.Launch
import proofs.«103416_j87574383165526_1_alg».proof.Proof.Gen.KernelIdeal.Points
import proofs.«103416_j87574383165526_1_alg».proof.Proof.Gen.KernelIdeal.Frame
import proofs.«103416_j87574383165526_1_alg».proof.Proof.Gen.ReferenceIdeal
import proofs.«103416_j87574383165526_1_alg».proof.Proof.Gen.Pre_finite_inputs
import proofs.«103416_j87574383165526_1_alg».proof.Proof.Gen.ReferenceIdeal.Run
import proofs.«103416_j87574383165526_1_alg».proof.Proof.Gen.ReferenceIdeal.Read
import proofs.«103416_j87574383165526_1_alg».proof.Proof.KernelRun
import proofs.«103416_j87574383165526_1_alg».proof.Proof.ReferenceLoss
import Idealize.ShloMosaic.Adequacy
import Idealize.ShloMosaic.Init

noncomputable section

namespace Cert.Proof

open Idealize.ShloMosaic Idealize.SL.Sem

/-- The word-level kernel program terminates without a fault and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result at the mean loss of the (agreeing) argument arrays. -/
theorem algebraic : Cert.algebraic_KernelIdeal_ReferenceIdeal := by
  intro m ρ m' ρ' _ hagree
  refine ⟨_, Cert.SecLoss.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.SecLoss.Reference.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
